-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x4096 : Shape := ⟨3, ![1, 1024, 4096]⟩
abbrev S16384x4096 : Shape := ⟨2, ![16384, 4096]⟩
abbrev S16384x1 : Shape := ⟨2, ![16384, 1]⟩
abbrev S_ : Shape := ⟨0, ![]⟩

class Facts : Prop where
  bcast_S_S1x1024x4096 : S_.BroadcastsInDim S1x1024x4096 (![] : Fin 0 → Fin S1x1024x4096.rank)
  reducesTo_S1x1024x4096_S_d0_1_2 : S1x1024x4096.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_

variable [Facts]

def fn {F : FTy → Type} [FloatOps F] (main_arg0 : FVec F S1x1024x4096 .f32) (main_arg1 : IVec S16384x4096 32) (main_arg2 : FVec F S16384x1 .f32) : IVec S_ 1 :=
  let main_v0 : FVec F S1x1024x4096 .f32 := Host.absf main_arg0
  let main_cst : FVec F S_ .f32 := constant S_ .f32 0x7F800000#32
  let main_v1 : FVec F S1x1024x4096 .f32 := broadcastInDim S1x1024x4096 ![] bcast_S_S1x1024x4096 main_cst
  let main_v2 : IVec S1x1024x4096 1 := cmpf .olt main_v0 main_v1
  let main_c : IVec S_ 1 := constantI S_ 1 1#1
  let main_v3 : IVec S_ 1 := (fun x v => Host.reduce IntOp.andi x v reducesTo_S1x1024x4096_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  main_v8
-- ==== Kernel.lean ====
abbrev S1x1024x4096 : Shape := ⟨3, ![1, 1024, 4096]⟩
abbrev S16384x4096 : Shape := ⟨2, ![16384, 4096]⟩
abbrev S16384x1 : Shape := ⟨2, ![16384, 1]⟩
abbrev S1x1024x16384 : Shape := ⟨3, ![1, 1024, 16384]⟩
abbrev S256x4096 : Shape := ⟨2, ![256, 4096]⟩
abbrev S256x1 : Shape := ⟨2, ![256, 1]⟩
abbrev S1x1024x256 : Shape := ⟨3, ![1, 1024, 256]⟩
abbrev S1024x4096 : Shape := ⟨2, ![1024, 4096]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S1x1024x4096, .f32⟩
  | .hbm, ⟨1, _⟩ => ⟨S16384x4096, .i32⟩
  | .hbm, ⟨2, _⟩ => ⟨S16384x1, .f32⟩
  | .hbm, ⟨3, _⟩ => ⟨S1x1024x4096, .bf16⟩
  | .hbm, ⟨4, _⟩ => ⟨S1x1024x16384, .f32⟩
  | .local _ .vmem, ⟨0, _⟩ => ⟨S1x1024x4096, .bf16⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S1x1024x256, .f32⟩
  | .local _ .vmem, ⟨6, _⟩ => ⟨S1x1024x256, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S1x1024x4096.size a
  hwx0_0 : ∀ i : grid0.Coords, EltTy.bits .bf16 = 32 ∨ (Rect.block (s := S1x1024x4096) S1x1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S1x1024x16384.size a
  hwx0_3 : ∀ i : grid0.Coords, EltTy.bits .f32 = 32 ∨ (Rect.block (s := S1x1024x16384) S1x1024x256.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1x1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x1024x4096 : Shape := ⟨3, ![1, 1024, 4096]⟩
abbrev S16384x4096 : Shape := ⟨2, ![16384, 4096]⟩
abbrev S16384x1 : Shape := ⟨2, ![16384, 1]⟩
abbrev S1x1024x16384 : Shape := ⟨3, ![1, 1024, 16384]⟩

abbrev nBuf : Space → Nat
  | .hbm => 7
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S16384x4096, .i32⟩
  | .hbm, ⟨2, _⟩ => ⟨S16384x1, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S1x1024x16384, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384x1_S16384x4096_0_1 : S16384x1.BroadcastsInDim S16384x4096 (![0, 1] : Fin 2 → Fin S16384x4096.rank)
  dot_S1x1024x4096_S16384x4096_S1x1024x16384_2_1_01_0_n_n_wf : DotDims.WF S1x1024x4096 S16384x4096 S1x1024x16384 [2] [1] [0, 1] [0] [] []

variable [Facts₀]

def dot_S1x1024x4096_S16384x4096_S1x1024x16384_2_1_01_0_n_n : DotDims S1x1024x4096 S16384x4096 S1x1024x16384 where
  lhsContracting := [2]
  rhsContracting := [1]
  lhsNonContracting := [0, 1]
  rhsNonContracting := [0]
  lhsBatch := []
  rhsBatch := []
  wf := dot_S1x1024x4096_S16384x4096_S1x1024x16384_2_1_01_0_n_n_wf

class Facts : Prop extends Facts₀ where

variable [Facts]
-- ==== Proof.KernelPayload.lean ====
/-
  What one grid point's body stores, read at an index.

  The body loads the whole `x` block (1 × 1024 × 4096), this point's 256 rows of integer weights
  (256 × 4096) and their 256 scales (a 256 × 1 column).  It multiplies every integer, converted exactly,
  by its row's scale (the column broadcast along the row), and contracts axis 1 of the `x` block, seen as
  1024 × 4096, with axis 1 of those weights into a zero accumulator.  So the stored block holds at
  (0, r, j) the sum over k of  x (0, r, k) · (q (j, k) · s (j, 0))  — changes of float format being the
  identity on the extended reals.
-/
import proofs.«419318_j45217415692989_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices: both operands are contracted on their axis 1 -/

/-- The left operand's row is the result's row. -/
theorem lhs_row (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl

/-- The left operand's column is the contraction coordinate. -/
theorem lhs_col (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q

/-- The right operand's row is the result's column. -/
theorem rhs_row (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl

/-- The right operand's column is the contraction coordinate. -/
theorem rhs_col (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The product into a zero accumulator at (r, j): the inner product of row r of the left operand with row j of the
    right operand. -/
theorem product_apply (l : FVec Ideal S1024x4096 .bf16) (w : FVec Ideal S256x4096 .bf16) (r : Fin 1024) (j : Fin 256) :
    matmul dot_S1024x4096_S256x4096_S1024x256_1_1_0_0_n_n none l w (constant S1024x256 .f32 0x00000000#32) (ix2 r j)
      = ∑ k : Fin 4096, l (ix2 r k) * w (ix2 j k) := by
  show FloatOps.matmul dot_S1024x4096_S256x4096_S1024x256_1_1_0_0_n_n none l w (constant S1024x256 .f32 0x00000000#32) (ix2 r j) = _
  rw [Ideal.matmul_constant_zero_apply, ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r j) ((contrEquiv1 dot_S1024x4096_S256x4096_S1024x256_1_1_0_0_n_n 4096 rfl rfl).symm k) = ix2 r k := funext fun a => Fin.ext (by
    match a with
    | ⟨0, _⟩ => exact lhs_row _ _
    | ⟨1, _⟩ => exact (lhs_col _ _).trans hk)
  have er : dot_S1024x4096_S256x4096_S1024x256_1_1_0_0_n_n.rhsIdx (ix2 r j) ((contrEquiv1 dot_S1024x4096_S256x4096_S1024x256_1_1_0_0_n_n 4096 rfl rfl).symm k) = ix2 j k := funext fun a => Fin.ext (by
    match a with
    | ⟨0, _⟩ => exact rhs_row _ _
    | ⟨1, _⟩ => exact (rhs_col _ _).trans hk)
  rw [el, er]

/-! ## The scale column along a row -/

/-- The 256 × 1 scale column broadcast to 256 × 4096 holds, at (j, k), the column's entry (j, 0). -/
theorem scale_broadcast_apply (s : Vec Ideal S256x1 .f32) (j : Fin 256) (k : Fin 4096) :
    broadcastTo S256x4096 s broadcasts_S256x1_S256x4096 (ix2 j k) = s (ix2 j (0 : Fin 1)) :=
  broadcastTo_apply s broadcasts_S256x1_S256x4096 (ix2 j k) (ix2 j (0 : Fin 1)) (fun a => match a with
    | ⟨0, _⟩ => by show j.val = if (256 : Nat) = 1 then 0 else j.val; rw [if_neg (by decide)]
    | ⟨1, _⟩ => by show 0 = if (1 : Nat) = 1 then 0 else k.val; rw [if_pos rfl])

/-! ## The stored block at an index -/

/-- The block the body stores, at (u, r, j): the inner product of row r of the `x` block with the dequantized row j
    of this point's weights. -/
theorem stored_apply (x : Vec Ideal S1x1024x4096 .bf16) (q : Vec Ideal S256x4096 .i32) (s : Vec Ideal S256x1 .f32)
    (u : Fin 1) (r : Fin 1024) (j : Fin 256) :
    k0_pay1 (F := Ideal) x q s (ix3 u r j)
      = ∑ k : Fin 4096, x (ix3 (0 : Fin 1) r k) * (FloatOps.sitofp (F := Ideal) .f32 (q (ix2 j k)) * s (ix2 j (0 : Fin 1))) := by
  unfold k0_pay1
  refine (shapeCast_ab_1ab_apply _ shapeCasts_S1024x256_S1x1024x256 u r j).trans ?_
  refine (product_apply _ _ r j).trans ?_
  refine Finset.sum_congr rfl fun k _ => ?_
  refine congrArg₂ (· * ·) (shapeCast_1ab_ab_apply x shapeCasts_S1x1024x4096_S1024x4096 r k) ?_
  show FloatOps.sitofp (F := Ideal) .f32 (q (ix2 j k)) * broadcastTo S256x4096 s broadcasts_S256x1_S256x4096 (ix2 j k) = _
  rw [scale_broadcast_apply]

/-- The same at any index of the block, by its coordinates. -/
theorem stored_at (x : Vec Ideal S1x1024x4096 .bf16) (q : Vec Ideal S256x4096 .i32) (s : Vec Ideal S256x1 .f32)
    (y : S1x1024x256.Idx) :
    k0_pay1 (F := Ideal) x q s y
      = ∑ k : Fin 4096, x (ix3 (0 : Fin 1) (y 1) k) * (FloatOps.sitofp (F := Ideal) .f32 (q (ix2 (y 2) k)) * s (ix2 (y 2) (0 : Fin 1))) := by
  obtain ⟨u, r, j, rfl⟩ : ∃ (u : Fin 1) (r : Fin 1024) (j : Fin 256), y = ix3 u r j := ⟨y 0, y 1, y 2, eq_ix3 y⟩
  exact stored_apply x q s u r j

end Cert.KernelIdeal.Payload

end
-- ==== Proof.DequantLinear.lean ====
/-
  The function both programs compute: a linear layer whose weights are stored as integers with one
  scale per output feature.

  The weight of output feature `o` at input feature `k` is the stored integer `q (o, k)`, read signed
  and exactly, times the feature's scale `s (o, 0)`; the layer's value at (0, r, o) is the inner product
  of row `r` of `x` with row `o` of the weights,  ∑ₖ x (0, r, k) · (q (o, k) · s (o, 0)),  a sum of
  4096 extended reals.  Nothing here needs the summands finite: the two programs build the SAME
  summands in the SAME order of factors, so the sums agree term by term.
-/
import Idealize.ShloMosaic.PureOps.Ideal
import Idealize.ShloMosaic.Lib.ValueIdx

noncomputable section

namespace DequantLinear

open Idealize.ShloMosaic Idealize.ShloMosaic.ValueIdx

/-- The dequantized weight of output feature `o` at input feature `k`: the stored integer as an extended
    real, times the output feature's scale. -/
def weight (q : (⟨2, ![16384, 4096]⟩ : Shape).Idx → BitVec 32) (s : (⟨2, ![16384, 1]⟩ : Shape).Idx → EReal)
    (o : Fin 16384) (k : Fin 4096) : EReal :=
  FloatOps.sitofp (F := Ideal) .f32 (q (ix2 o k)) * s (ix2 o (0 : Fin 1))

/-- The stored integer enters as its signed value, exactly. -/
theorem weight_eq (q : (⟨2, ![16384, 4096]⟩ : Shape).Idx → BitVec 32) (s : (⟨2, ![16384, 1]⟩ : Shape).Idx → EReal)
    (o : Fin 16384) (k : Fin 4096) :
    weight q s o k = (((q (ix2 o k)).toInt : ℝ) : EReal) * s (ix2 o (0 : Fin 1)) := rfl

/-- The layer: at (b, r, o) the inner product over the 4096 input features of row (b, r) of `x` with the
    dequantized weights of output feature `o`. -/
def linear (x : (⟨3, ![1, 1024, 4096]⟩ : Shape).Idx → EReal) (q : (⟨2, ![16384, 4096]⟩ : Shape).Idx → BitVec 32)
    (s : (⟨2, ![16384, 1]⟩ : Shape).Idx → EReal) : (⟨3, ![1, 1024, 16384]⟩ : Shape).Idx → EReal :=
  fun i => ∑ k : Fin 4096, x (ix3 (i 0) (i 1) k) * weight q s (i 2) k

end DequantLinear

end
-- ==== Proof.KernelLinear.lean ====
/-
  The kernel's result array is the layer `DequantLinear.linear`.

  The grid has 64 points.  Point t works on the whole of `x` (rounded to bf16 by the host before the call: the
  identity on the extended reals), on rows 256·t … 256·t + 255 of the integer weights and of the scale column, and
  writes columns 256·t … 256·t + 255 of the result.  What it writes at (0, r, j) is the inner product of row r of
  `x` with the dequantized weight row 256·t + j (`Payload.stored_at`), which is the layer's value at
  (0, r, 256·t + j): so each point writes its block of ONE whole-array function.  The 64 column blocks tile the
  16384 columns — column o lies in the block of point o / 256 —, hence the array ends holding the layer.
-/
import proofs.«419318_j45217415692989_3_alg».proof.Proof.Gen.KernelIdeal.Value
import proofs.«419318_j45217415692989_3_alg».proof.Proof.KernelPayload
import proofs.«419318_j45217415692989_3_alg».proof.Proof.DequantLinear
import Idealize.ShloMosaic.Lib.StableHlo.Run

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The layer of the argument arrays as launched, on core `c`. -/
abbrev layer (c : Dev nD) : S1x1024x16384.Idx → EReal :=
  DequantLinear.linear (m ((c : Thread nD τ).loc main_arg0)) (m ((c : Thread nD τ).loc main_arg1)) (m ((c : Thread nD τ).loc main_arg2))

/-- The array the first window stages is `x` itself: the host's rounding to bf16 changes no extended real. -/
theorem staged_x (c : Dev nD) : (V m c main_v0 : S1x1024x4096.Idx → EReal) = m ((c : Thread nD τ).loc main_arg0) := by
  have e : (V m c main_v0 : S1x1024x4096.Idx → EReal)
      = truncf (F := Ideal) .bf16 (m ((c : Thread nD τ).loc main_arg0)) bitsLt_bf16_f32 := by
    dsimp only [Gen.V, Gen.hostOps0]; after_results
  rw [e]; rfl

/-- The index maps over the grid: the `x` window stays at block (0, 0, 0); the weight and scale windows are at row
    block t; the result window is at column block t. -/
theorem index_maps : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = t.val :=
  (by decide +kernel : ∀ t : Fin grid0.N, _)

/-- WHAT POINT `t` WRITES BACK is block `t` of the layer. -/
theorem written_eq (c : Dev nD) (t : Fin cfg0.N) :
    (dats m 0 c).flushed 3 t = ((cfg0.win 3).blk t).view.read (Elt Ideal) (layer m c) := by
  rw [Value.flushed3]
  unfold out0_3
  rw [View.canon_unit_zero zeros3]
  simp only [View.ld_unit_zero (S := S1x1024x4096) zeros3, View.ld_unit_zero (S := S256x4096) zeros2, View.ld_unit_zero (S := S256x1) zeros2]
  obtain ⟨a0, a1, a2, b0, b1, s0, s1, o0, o1, o2⟩ := index_maps t
  funext y
  have hy0 : (y 0).val < 1 := (y 0).isLt
  have hy1 : (y 1).val < 1024 := (y 1).isLt
  have hy2 : (y 2).val < 256 := (y 2).isLt
  have ht : t.val < 64 := lt_of_lt_of_eq t.isLt N_0
  show k0_pay1 (F := Ideal) (iblk m c 0 t) (iblk m c 1 t) (iblk m c 2 t) y = layer m c (((cfg0.win 3).blk t).view.emb y)
  refine (Payload.stored_at (iblk m c 0 t) (iblk m c 1 t) (iblk m c 2 t) y).trans ?_
  refine Finset.sum_congr rfl fun k _ => ?_
  have hk : k.val < 4096 := k.isLt
  -- row (y 1) of the x block is row (y 1) of x
  have ex : iblk m c 0 t (ix3 (0 : Fin 1) (y 1) k)
      = m ((c : Thread nD τ).loc main_arg0) (ix3 ((((cfg0.win 3).blk t).view.emb y) 0) ((((cfg0.win 3).blk t).view.emb y) 1) k) := by
    show V m c main_v0 (((cfg0.win 0).blk t).view.emb (ix3 (0 : Fin 1) (y 1) k)) = _
    rw [staged_x]
    refine congrArg (m ((c : Thread nD τ).loc main_arg0)) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 4096 + 1 * k.val = k.val; omega
  -- row (y 2) of this point's weights is weight row 256·t + (y 2)
  have eq : iblk m c 1 t (ix2 (y 2) k)
      = m ((c : Thread nD τ).loc main_arg1) (ix2 ((((cfg0.win 3).blk t).view.emb y) 2) k) := by
    show V m c main_arg1 (((cfg0.win 1).blk t).view.emb (ix2 (y 2) k)) = _
    rw [V_main_arg1]
    refine congrArg (m ((c : Thread nD τ).loc main_arg1)) (funext fun a => Fin.ext ?_)
    match a with
    | ⟨0, _⟩ => show win0_1.index t (0 : Fin 2) * 256 + 1 * (y 2).val = win0_3.index t (2 : Fin 3) * 256 + 1 * (y 2).val; omega
    | ⟨1, _⟩ => show win0_1.index t (1 : Fin 2) * 4096 + 1 * k.val = k.val; omega
  -- and its scale is scale 256·t + (y 2)
  have es : iblk m c 2 t (ix2 (y 2) (0 : Fin 1))
      = m ((c : Thread nD τ).loc main_arg2) (ix2 ((((cfg0.win 3).blk t).view.emb y) 2) (0 : Fin 1)) := by
    show V m c main_arg2 (((cfg0.win 2).blk t).view.emb (ix2 (y 2) (0 : Fin 1))) = _
    rw [V_main_arg2]
    refine congrArg (m ((c : Thread nD τ).loc main_arg2)) (funext fun a => Fin.ext ?_)
    match a with
    | ⟨0, _⟩ => show win0_2.index t (0 : Fin 2) * 256 + 1 * (y 2).val = win0_3.index t (2 : Fin 3) * 256 + 1 * (y 2).val; omega
    | ⟨1, _⟩ => show win0_2.index t (1 : Fin 2) * 1 + 1 * 0 = 0; omega
  rw [ex, eq, es]
  rfl

/-- An index of the result array is in point `t`'s block iff each coordinate is in the block's range on its axis. -/
theorem mem_block (t : Fin cfg0.N) (i : S1x1024x16384.Idx) :
    i ∈ ((cfg0.win 3).blk t).view.set ↔ ∀ a : Fin 3, win0_3.index t a * S1x1024x256.size a ≤ (i a).val ∧ (i a).val < win0_3.index t a * S1x1024x256.size a + S1x1024x256.size a := by
  show i ∈ ((View.whole main_v1).slice (win0_3.rect t)).set ↔ _
  rw [View.set_slice_whole, Rect.mem_set_unit]
  exact Iff.rfl

/-- Every index of the result array is in some point's block: column o is written by point o / 256. -/
theorem covered (i : S1x1024x16384.Idx) :
    ∃ t : Fin cfg0.N, (cfg0.win 3).flush t = true ∧ i ∈ ((cfg0.win 3).blk t).view.set := by
  have hi0 : (i 0).val < 1 := (i 0).isLt
  have hi1 : (i 1).val < 1024 := (i 1).isLt
  have hi2 : (i 2).val < 16384 := (i 2).isLt
  have hN : (i 2).val / 256 < cfg0.N := by rw [show cfg0.N = 64 from N_0]; omega
  refine ⟨⟨(i 2).val / 256, hN⟩, flush0_3 _, ?_⟩
  obtain ⟨-, -, -, -, -, -, -, o0, o1, o2⟩ := index_maps ⟨(i 2).val / 256, hN⟩
  have o2' : win0_3.index ⟨(i 2).val / 256, hN⟩ (2 : Fin 3) = (i 2).val / 256 := o2
  rw [mem_block]
  intro a
  match a with
  | ⟨0, _⟩ => show win0_3.index ⟨(i 2).val / 256, hN⟩ (0 : Fin 3) * 1 ≤ (i 0).val ∧ (i 0).val < win0_3.index ⟨(i 2).val / 256, hN⟩ (0 : Fin 3) * 1 + 1; omega
  | ⟨1, _⟩ => show win0_3.index ⟨(i 2).val / 256, hN⟩ (1 : Fin 3) * 1024 ≤ (i 1).val ∧ (i 1).val < win0_3.index ⟨(i 2).val / 256, hN⟩ (1 : Fin 3) * 1024 + 1024; omega
  | ⟨2, _⟩ => show win0_3.index ⟨(i 2).val / 256, hN⟩ (2 : Fin 3) * 256 ≤ (i 2).val ∧ (i 2).val < win0_3.index ⟨(i 2).val / 256, hN⟩ (2 : Fin 3) * 256 + 256; omega

/-- THE ARRAY after the run is the layer of the argument arrays. -/
theorem final (c : Dev nD) : (dats m 0 c).arrAt 3 cfg0.N = layer m c :=
  (dats m 0 c).arrAt_eq_of_cover 3 (layer m c) (fun t _ => written_eq m c t) covered

/-- The kernel's run: it terminates with the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Linear

end
-- ==== Proof.ReferenceLinear.lean ====
/-
  The reference computes the layer `DequantLinear.linear`.

  Its four operations are: the integers converted to floats; the scale column broadcast along the input
  features; their product (the dequantized weights, 16384 × 4096); and one contraction of `x`'s last axis
  with the weights' last axis.  Read at an index (b, r, o) the contraction is the sum over k of
  x (b, r, k) times the weight at (o, k), and the weight at (o, k) is the integer at (o, k) times the scale
  at (o, 0): the layer's summand, factor for factor.
-/
import proofs.«419318_j45217415692989_3_alg».proof.Proof.Gen.ReferenceIdeal.Read
import proofs.«419318_j45217415692989_3_alg».proof.Proof.DequantLinear

noncomputable section

namespace Cert.ReferenceIdeal.Linear

open Cert.ReferenceIdeal Cert.ReferenceIdeal.Read Idealize.ShloMosaic Idealize.ShloMosaic.ValueIdx

/-- The contraction's left operand index at (i, k) is (i₀, i₁, k). -/
theorem lidx_eq (i : S1x1024x16384.Idx) (k : Fin 4096) : lidx_main_v3 i k = ix3 (i 0) (i 1) k :=
  funext fun a => Fin.ext (by match a with | ⟨0, _⟩ => rfl | ⟨1, _⟩ => rfl | ⟨2, _⟩ => rfl)

/-- Its right operand index at (i, k) is (i₂, k): the weights' row is the output feature. -/
theorem ridx_eq (i : S1x1024x16384.Idx) (k : Fin 4096) : ridx_main_v3 i k = ix2 (i 2) k :=
  funext fun a => Fin.ext (by match a with | ⟨0, _⟩ => rfl | ⟨1, _⟩ => rfl)

/-- The broadcast scale at the weights' index (i₂, k) is the scale column's entry (i₂, 0). -/
theorem scale_idx_eq (i : S1x1024x16384.Idx) (k : Fin 4096) : idx_main_v1 (ridx_main_v3 i k) = ix2 (i 2) (0 : Fin 1) :=
  funext fun a => Fin.ext (by match a with | ⟨0, _⟩ => rfl | ⟨1, _⟩ => rfl)

/-- The reference's result, as a function of its three arguments, is the layer. -/
theorem result_eq (x : (⟨S1x1024x4096, .f32⟩ : BufTy).Contents (Elt Ideal)) (q : (⟨S16384x4096, .i32⟩ : BufTy).Contents (Elt Ideal))
    (s : (⟨S16384x1, .f32⟩ : BufTy).Contents (Elt Ideal)) :
    val_main_v3 (F := Ideal) x q s = DequantLinear.linear x q s := by
  funext i
  rw [val_main_v3_apply]
  unfold DequantLinear.linear DequantLinear.weight
  refine Finset.sum_congr rfl fun k _ => ?_
  rw [val_main_v2_apply, val_main_v0_apply, val_main_v1_apply, scale_idx_eq, lidx_eq, ridx_eq]
  rfl

end Cert.ReferenceIdeal.Linear

end
-- ==== Proof.lean ====
/-
  A linear layer with integer weights and one scale per output feature, computed by a kernel that dequantizes
  256 weight rows per grid point and multiplies them into `x`, against the plain expression
  `x · (q · s)ᵀ`.

  On the extended reals both programs compute, at (0, r, o), the sum over the 4096 input features k of
  x (0, r, k) · (q (o, k) · s (o, 0))  (`DequantLinear.linear`): the kernel block of columns by block of columns
  (`Cert.KernelIdeal.Linear.run`: the 64 blocks tile the result), the reference in one contraction
  (`Cert.ReferenceIdeal.Linear.result_eq`).  The summands are the same products in the same order and both sums run
  over the same index, so the two results are equal term by term; no input needs to be finite for that.  The
  idealization rewrote nothing, so `preserves` has no conjunct.
-/
import proofs.«419318_j45217415692989_3_alg».proof.Defs
import proofs.«419318_j45217415692989_3_alg».proof.Proof.Gen.Kernel
import proofs.«419318_j45217415692989_3_alg».proof.Proof.Gen.Kernel.Skeleton
import proofs.«419318_j45217415692989_3_alg».proof.Proof.Gen.Kernel.Launch
import proofs.«419318_j45217415692989_3_alg».proof.Proof.Gen.Kernel.Points
import proofs.«419318_j45217415692989_3_alg».proof.Proof.Gen.Kernel.Frame
import proofs.«419318_j45217415692989_3_alg».proof.Proof.Gen.KernelIdeal
import proofs.«419318_j45217415692989_3_alg».proof.Proof.Gen.KernelIdeal.Skeleton
import proofs.«419318_j45217415692989_3_alg».proof.Proof.Gen.KernelIdeal.Launch
import proofs.«419318_j45217415692989_3_alg».proof.Proof.Gen.KernelIdeal.Points
import proofs.«419318_j45217415692989_3_alg».proof.Proof.Gen.KernelIdeal.Frame
import proofs.«419318_j45217415692989_3_alg».proof.Proof.Gen.ReferenceIdeal
import proofs.«419318_j45217415692989_3_alg».proof.Proof.Gen.Pre_finite_inputs
import proofs.«419318_j45217415692989_3_alg».proof.Proof.Gen.KernelIdeal.Value
import proofs.«419318_j45217415692989_3_alg».proof.Proof.Gen.ReferenceIdeal.Run
import proofs.«419318_j45217415692989_3_alg».proof.Proof.Gen.ReferenceIdeal.Read
import proofs.«419318_j45217415692989_3_alg».proof.Proof.KernelLinear
import proofs.«419318_j45217415692989_3_alg».proof.Proof.ReferenceLinear
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the layer of those
    arguments. -/
theorem algebraic : Cert.algebraic_KernelIdeal_ReferenceIdeal := by
  intro m ρ m' ρ' _ hagree
  refine ⟨fun c => Cert.KernelIdeal.Linear.layer m c, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Linear.result_eq _ _ _).trans ?_
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
